-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4x2048x4096 .f32) (main_arg1 : FVec F S4096x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4x2048x4096 : Shape := ⟨3, ![4, 2048, 4096]⟩
abbrev S4096x4096 : Shape := ⟨2, ![4096, 4096]⟩
abbrev S4096x512 : Shape := ⟨2, ![4096, 512]⟩
abbrev S512 : Shape := ⟨1, ![512]⟩
abbrev S1x512 : Shape := ⟨2, ![1, 512]⟩
abbrev S8192x4096 : Shape := ⟨2, ![8192, 4096]⟩
abbrev S512x4096 : Shape := ⟨2, ![512, 4096]⟩
abbrev S512x1 : Shape := ⟨2, ![512, 1]⟩
abbrev S4096x1024 : Shape := ⟨2, ![4096, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x4096, .bf16⟩
  | .hbm, ⟨3, _⟩ => ⟨S8192x4096, .f32⟩
  | .hbm, ⟨4, _⟩ => ⟨S8192x4096, .bf16⟩
  | .hbm, ⟨5, _⟩ => ⟨S8192x4096, .f32⟩
  | .hbm, ⟨6, _⟩ => ⟨S4x2048x4096, .f32⟩
  | .local _ .vmem, ⟨0, _⟩ => ⟨S4096x512, .f32⟩
  | .local _ .vmem, ⟨1, _⟩ => ⟨S4096x512, .f32⟩
  | .local _ .vmem, ⟨2, _⟩ => ⟨S4096x512, .bf16⟩
  | .local _ .vmem, ⟨3, _⟩ => ⟨S4096x512, .bf16⟩
  | .local _ .vmem, ⟨4, _⟩ => ⟨S512x4096, .f32⟩
  | .local _ .vmem, ⟨5, _⟩ => ⟨S512x4096, .f32⟩
  | .local _ .vmem, ⟨6, _⟩ => ⟨S512x4096, .bf16⟩
  | .local _ .vmem, ⟨7, _⟩ => ⟨S512x4096, .bf16⟩
  | .local _ .vmem, ⟨8, _⟩ => ⟨S512x4096, .bf16⟩
  | .local _ .vmem, ⟨9, _⟩ => ⟨S512x4096, .bf16⟩
  | .local _ .vmem, ⟨10, _⟩ => ⟨S4096x1024, .bf16⟩
  | .local _ .vmem, ⟨11, _⟩ => ⟨S4096x1024, .bf16⟩
  | .local _ .vmem, ⟨12, _⟩ => ⟨S512x1024, .f32⟩
  | .local _ .vmem, ⟨13, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![4, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  inb_S4096x512_S4096x512_0_0 : ∀ a, (![0, 0] : Fin 2 → Nat) a + S4096x512.size a ≤ S4096x512.size a
  h_S4096x512 : 0 < S4096x512.numel
  reduces_S4096x512_S512 : S4096x512.Reduces [0] S512
  shapeCasts_S512_S1x512 : S512.ShapeCasts S1x512
  broadcasts_S1x512_S4096x512 : S1x512.Broadcasts S4096x512
  bitsLt_bf16_f32 : FTy.bits .bf16 < FTy.bits .f32
  packedbf16_S4096x512_S4096x512_0_0 : (Rect.unit (s := S4096x512) ![0, 0] S4096x512.size inb_S4096x512_S4096x512_0_0).PackedRows (EltTy.packing .bf16)
  shapeCasts_S4x2048x4096_S8192x4096 : S4x2048x4096.ShapeCasts S8192x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  reduces_S512x4096_S512 : S512x4096.Reduces [1] S512
  shapeCasts_S512_S512x1 : S512.ShapeCasts S512x1
  broadcasts_S512x1_S512x4096 : S512x1.Broadcasts S512x4096
  packedbf16_S512x4096_S512x4096_0_0 : (Rect.unit (s := S512x4096) ![0, 0] S512x4096.size inb_S512x4096_S512x4096_0_0).PackedRows (EltTy.packing .bf16)
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S512x1024_S512x1024_0_0 : ∀ a, (![0, 0] : Fin 2 → Nat) a + S512x1024.size a ≤ S512x1024.size a
  h_S512x1024 : 0 < S512x1024.numel
  shapeCasts_S8192x4096_S4x2048x4096 : S8192x4096.ShapeCasts S4x2048x4096
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S4096x4096.size a
  hwx0_0 : ∀ i : grid0.Coords, EltTy.bits .f32 = 32 ∨ (Rect.block (s := S4096x4096) S4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x4096.size a
  hwx0_1 : ∀ i : grid0.Coords, EltTy.bits .bf16 = 32 ∨ (Rect.block (s := S4096x4096) S4096x512.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S8192x4096.size a
  hwx1_0 : ∀ i : grid1.Coords, EltTy.bits .f32 = 32 ∨ (Rect.block (s := S8192x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S8192x4096.size a
  hwx1_1 : ∀ i : grid1.Coords, EltTy.bits .bf16 = 32 ∨ (Rect.block (s := S8192x4096) S512x4096.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S8192x4096.size a
  hwx2_0 : ∀ i : grid2.Coords, EltTy.bits .bf16 = 32 ∨ (Rect.block (s := S8192x4096) S512x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x1024.size a ≤ S4096x4096.size a
  hwx2_1 : ∀ i : grid2.Coords, EltTy.bits .bf16 = 32 ∨ (Rect.block (s := S4096x4096) S4096x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S8192x4096.size a
  hwx2_2 : ∀ i : grid2.Coords, EltTy.bits .f32 = 32 ∨ (Rect.block (s := S8192x4096) S512x1024.size (cc2_transform_2 i) (hinb2_2 i)).WholeWords (EltTy.packing .f32)

variable [Facts₀]

def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_arg1) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S512x4096.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v2) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S4096x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S_ : Shape := ⟨0, ![]⟩
abbrev S4x2048 : Shape := ⟨2, ![4, 2048]⟩
abbrev S4x2048x1 : Shape := ⟨3, ![4, 2048, 1]⟩
abbrev S4096 : Shape := ⟨1, ![4096]⟩
abbrev S1x4096 : Shape := ⟨2, ![1, 4096]⟩

abbrev nBuf : Space → Nat
  | .hbm => 49
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4x2048x4096, .f32⟩
  | .hbm, ⟨3, _⟩ => ⟨S_, .f32⟩
  | .hbm, ⟨4, _⟩ => ⟨S4x2048, .f32⟩
  | .hbm, ⟨5, _⟩ => ⟨S4x2048x1, .f32⟩
  | .hbm, ⟨6, _⟩ => ⟨S_, .f32⟩
  | .hbm, ⟨7, _⟩ => ⟨S4x2048x1, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S4x2048x4096, .f32⟩
  | .hbm, ⟨13, _⟩ => ⟨S4x2048x4096, .f32⟩
  | .hbm, ⟨14, _⟩ => ⟨S4x2048x4096, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S4x2048x4096, .f32⟩
  | .hbm, ⟨19, _⟩ => ⟨S4x2048x4096, .f32⟩
  | .hbm, ⟨20, _⟩ => ⟨S_, .f32⟩
  | .hbm, ⟨21, _⟩ => ⟨S4x2048x4096, .f32⟩
  | .hbm, ⟨22, _⟩ => ⟨S4x2048x4096, .f32⟩
  | .hbm, ⟨23, _⟩ => ⟨S4x2048x4096, .f32⟩
  | .hbm, ⟨24, _⟩ => ⟨S4x2048x4096, .f32⟩
  | .hbm, ⟨25, _⟩ => ⟨S4096x4096, .f32⟩
  | .hbm, ⟨26, _⟩ => ⟨S_, .f32⟩
  | .hbm, ⟨27, _⟩ => ⟨S4096, .f32⟩
  | .hbm, ⟨28, _⟩ => ⟨S1x4096, .f32⟩
  | .hbm, ⟨29, _⟩ => ⟨S_, .f32⟩
  | .hbm, ⟨30, _⟩ => ⟨S1x4096, .f32⟩
  | .hbm, ⟨31, _⟩ => ⟨S1x4096, .f32⟩
  | .hbm, ⟨32, _⟩ => ⟨S_, .f32⟩
  | .hbm, ⟨33, _⟩ => ⟨S1x4096, .f32⟩
  | .hbm, ⟨34, _⟩ => ⟨S1x4096, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096x4096, .f32⟩
  | .hbm, ⟨42, _⟩ => ⟨S4096x4096, .f32⟩
  | .hbm, ⟨43, _⟩ => ⟨S_, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_cst_3 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_cst_5 : Ref sig .tc := ⟨.hbm, 29, rfl⟩
abbrev main_v16 : Ref sig .tc := ⟨.hbm, 30, rfl⟩
abbrev main_v17 : Ref sig .tc := ⟨.hbm, 31, rfl⟩
abbrev main_cst_6 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_7 : Ref sig .tc := ⟨.hbm, 38, rfl⟩
abbrev main_cst_8 : Ref sig .tc := ⟨.hbm, 39, rfl⟩
abbrev main_call3_v0 : Ref sig .tc := ⟨.hbm, 40, rfl⟩
abbrev main_call3_v1 : Ref sig .tc := ⟨.hbm, 41, rfl⟩
abbrev main_call3_v2 : Ref sig .tc := ⟨.hbm, 42, rfl⟩
abbrev main_call3_v3 : Ref sig .tc := ⟨.hbm, 43, rfl⟩
abbrev main_call3_v4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩

abbrev nD : Nat := 1
abbrev τ : Topo := Topo.v7x

variable {F : FTy → Type} [FloatOps F]

class Facts₀ : Prop where
  reducesTo_S4x2048x4096_S4x2048_d2 : S4x2048x4096.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x4096_0_1_2 : S4x2048x1.BroadcastsInDim S4x2048x4096 (![0, 1, 2] : Fin 3 → Fin S4x2048x4096.rank)
  bcast_S_S4x2048x4096 : S_.BroadcastsInDim S4x2048x4096 (![] : Fin 0 → Fin S4x2048x4096.rank)
  reducesTo_S4096x4096_S4096_d0 : S4096x4096.ReducesTo [0] S4096
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  dot_S4x2048x4096_S4096x4096_S4x2048x4096_2_0_01_1_n_n_wf : DotDims.WF S4x2048x4096 S4096x4096 S4x2048x4096 [2] [0] [0, 1] [1] [] []

variable [Facts₀]

def dot_S4x2048x4096_S4096x4096_S4x2048x4096_2_0_01_1_n_n : DotDims S4x2048x4096 S4096x4096 S4x2048x4096 where
  lhsContracting := [2]
  rhsContracting := [0]
  lhsNonContracting := [0, 1]
  rhsNonContracting := [1]
  lhsBatch := []
  rhsBatch := []
  wf := dot_S4x2048x4096_S4096x4096_S4x2048x4096_2_0_01_1_n_n_wf

class Facts : Prop extends Facts₀ where

variable [Facts]
-- ==== Proof.Spec.lean ====
/-
  What both programs compute, stated once over the extended reals.

  A family of numbers is fake-quantized to the int8 grid with a dynamic scale: the scale is the largest absolute
  value of the family (never below the float nearest to 1e-6), divided by 127; a number is divided by the scale,
  rounded to the nearest integer (ties to even), clamped to [-127, 127] and multiplied by the scale again.
  The weight matrix is quantized column by column (the family is a column), the activations row by row (the family
  is a row along the last axis), and the result is the matrix product of the two quantized arrays, the activations'
  two leading axes kept apart in the rank-3 reading and flattened row-major in the rank-2 reading.
-/
import Idealize.ShloMosaic.Lib.ValueIdx
import Idealize.ShloMosaic.PureOps.Ideal.Laws

noncomputable section

open scoped BigOperators

namespace Cert.Spec

open Idealize.ShloMosaic Idealize.ShloMosaic.ValueIdx

/-- The activations as given, [4, 2048, 4096]. -/
abbrev A3 : Shape := ⟨3, ![4, 2048, 4096]⟩
/-- The activations with the two leading axes flattened, [8192, 4096]. -/
abbrev A2 : Shape := ⟨2, ![8192, 4096]⟩
/-- The weights, [4096, 4096]. -/
abbrev W2 : Shape := ⟨2, ![4096, 4096]⟩

/-- The quantization step of a family: its largest absolute value (the fold of `max` from the float `-∞`), kept at
    least the float nearest 1e-6, over 127. -/
def scale {n : Nat} (v : Fin n → EReal) : EReal :=
  Ideal.div
    (max ((Finset.univ : Finset (Fin n)).fold max (Ideal.ofBits .f32 0xFF800000#32) (fun e => max (v e) (-(v e))))
      (Ideal.ofBits .f32 0x358637BD#32))
    (Ideal.ofBits .f32 0x42FE0000#32)

/-- A number on the grid of step `s`: divided by the step, rounded half to even, clamped to [-127, 127], times the step. -/
def fq (x s : EReal) : EReal :=
  min (Ideal.ofBits .f32 0x42FE0000#32)
      (max (Ideal.ofBits .f32 0xC2FE0000#32) (Ideal.liftRound Ideal.roundHalfEven (Ideal.div x s))) * s

/-- The weight at row `d`, column `f`, quantized with its COLUMN's step. -/
def wq (k : W2.Idx → EReal) (d f : Fin 4096) : EReal :=
  fq (k (ix2 d f)) (scale fun e : Fin 4096 => k (ix2 e f))

/-- The flattened activation at row `r`, position `d`, quantized with its ROW's step. -/
def aq2 (x : A2.Idx → EReal) (r : Fin 8192) (d : Fin 4096) : EReal :=
  fq (x (ix2 r d)) (scale fun e : Fin 4096 => x (ix2 r e))

/-- The activation at (b, s, d), quantized with the step of its row along the last axis. -/
def aq3 (x : A3.Idx → EReal) (b : Fin 4) (s : Fin 2048) (d : Fin 4096) : EReal :=
  fq (x (ix3 b s d)) (scale fun e : Fin 4096 => x (ix3 b s e))

/-- Rows by columns over the 4096 contracted positions. -/
def out2 (a : A2.Idx → EReal) (w : W2.Idx → EReal) (r : Fin 8192) (f : Fin 4096) : EReal :=
  ∑ d : Fin 4096, a (ix2 r d) * w (ix2 d f)

/-- THE RESULT: at (b, s, f) the sum over `d` of the quantized activation (b, s, d) times the quantized weight (d, f). -/
def out3 (x : A3.Idx → EReal) (k : W2.Idx → EReal) : A3.Idx → EReal :=
  fun i => ∑ d : Fin 4096, aq3 x (i 0) (i 1) d * wq k d (i 2)

end Cert.Spec

end
-- ==== Proof.Flatten.lean ====
/-
  The two readings of the activations agree. Flattening the two leading axes row-major sends (b, s, d) to
  (b·2048 + s, d); a row of the flattened array is the row (b, s, ·) of the rank-3 array, so its quantization step is
  the same number, and the rank-2 product read back at (b, s, f) is the rank-3 result.
-/
import proofs.«169491_j28449863369033_1_alg».proof.Proof.Spec
import Idealize.ShloMosaic.Lib.Pipeline.Value
import Idealize.ShloMosaic.Lib.ValueIdx

noncomputable section

open scoped BigOperators

namespace Cert.Spec

open Idealize.ShloMosaic Idealize.ShloMosaic.ValueIdx

/-- The flattened array at (b·2048 + s, e) is the rank-3 array at (b, s, e). -/
theorem flat_apply (h32 : A3.ShapeCasts A2) (x : A3.Idx → EReal) (b : Fin 4) (s : Fin 2048) (r : Fin 8192)
    (hr : r.val = b.val * 2048 + s.val) (e : Fin 4096) : shapeCast A2 x h32 (ix2 r e) = x (ix3 b s e) :=
  shapeCast_apply x h32 (ix2 r e) (ix3 b s e) (by
    rw [Shape.rowMajor_val_three, Shape.rowMajor_val_two]
    show (b.val * 2048 + s.val) * 4096 + e.val = r.val * 4096 + e.val
    rw [hr])

/-- So a flattened row's quantized entry is the rank-3 row's. -/
theorem aq2_flat (h32 : A3.ShapeCasts A2) (x : A3.Idx → EReal) (b : Fin 4) (s : Fin 2048) (r : Fin 8192)
    (hr : r.val = b.val * 2048 + s.val) (d : Fin 4096) : aq2 (shapeCast A2 x h32) r d = aq3 x b s d := by
  unfold aq2 aq3
  simp only [flat_apply h32 x b s r hr]

/-- The rank-2 product of the quantized flattened activations and the quantized weights, read back at rank 3, is the
    result. -/
theorem out3_of_flat (h32 : A3.ShapeCasts A2) (h23 : A2.ShapeCasts A3) (x : A3.Idx → EReal) (k : W2.Idx → EReal) :
    shapeCast A3 (fun i : A2.Idx => out2 (fun j : A2.Idx => aq2 (shapeCast A2 x h32) (j 0) (j 1))
        (fun j : W2.Idx => wq k (j 0) (j 1)) (i 0) (i 1)) h23 = out3 x k := by
  funext i
  obtain ⟨b, s, f, rfl⟩ : ∃ (b : Fin 4) (s : Fin 2048) (f : Fin 4096), i = ix3 b s f := ⟨i 0, i 1, i 2, eq_ix3 i⟩
  have hr : b.val * 2048 + s.val < 8192 := by have := b.isLt; have := s.isLt; omega
  rw [shapeCast_apply _ h23 (ix3 b s f) (ix2 (⟨b.val * 2048 + s.val, hr⟩ : Fin 8192) f) (by
    rw [Shape.rowMajor_val_two, Shape.rowMajor_val_three]; rfl)]
  show out2 _ _ (⟨b.val * 2048 + s.val, hr⟩ : Fin 8192) f = ∑ d : Fin 4096, aq3 x b s d * wq k d f
  unfold out2
  refine Finset.sum_congr rfl fun d _ => ?_
  show aq2 (shapeCast A2 x h32) (⟨b.val * 2048 + s.val, hr⟩ : Fin 8192) d * wq k d f = _
  rw [aq2_flat h32 x b s ⟨b.val * 2048 + s.val, hr⟩ rfl d]

end Cert.Spec

end
-- ==== Proof.WeightQuant.lean ====
import proofs.«169491_j28449863369033_1_alg».proof.Proof.Gen.KernelIdeal.Frame
import proofs.«169491_j28449863369033_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.WeightQuant

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## One element of the block the body stores -/

/-- The source index over column `q` of a block whose row is `e`: the row inserted in front of the column. -/
theorem lift_col (q : Fin 512) (e : Fin 4096) :
    reduces_S4096x512_S512.lift (ix1 q) e = (ix2 e q : S4096x512.Idx) := by
  funext a
  apply Fin.ext
  match a with
  | ⟨0, _⟩ => rfl
  | ⟨1, _⟩ => rfl

/-- The largest absolute value down each column of a block, as the block's arithmetic takes it: the fold of `max`
    over the column's 4096 rows, from the float `-∞`. -/
theorem colMax_apply (x0 : FVec Ideal S4096x512 .f32) (hacc : (0xFF800000#32 : BitVec 32) = 0xFF800000#32) (q : Fin 512) :
    multiReduction (F := Ideal) .maximumf [0] S512 (absf x0) 0xFF800000#32 reduces_S4096x512_S512 (.inl rfl) hacc (ix1 q)
      = (Finset.univ : Finset (Fin 4096)).fold max (Ideal.ofBits .f32 0xFF800000#32)
          (fun e => max (x0 (ix2 e q)) (-(x0 (ix2 e q)))) := by
  refine (Ideal.multiReduction_maximumf_single (absf x0) 0xFF800000#32 reduces_S4096x512_S512 (.inl rfl) hacc (ix1 q)).trans ?_
  show (Finset.univ : Finset (Fin 4096)).fold max (Ideal.ofBits .f32 0xFF800000#32) _ = _
  congr 1
  funext e
  show max (x0 (reduces_S4096x512_S512.lift (ix1 q) e)) (-(x0 (reduces_S4096x512_S512.lift (ix1 q) e))) = _
  have hl : reduces_S4096x512_S512.lift (ix1 q) e = ix2 e q := lift_col q e
  rw [hl]
  rfl

/-- The row of quantization steps of a block: each column's largest absolute value, kept at least the float nearest
    1e-6, over 127. -/
def steps (x0 : FVec Ideal S4096x512 .f32) : FVec Ideal S1x512 .f32 :=
  divf (maximumf (shapeCast S1x512 (multiReduction (F := Ideal) .maximumf [0] S512 (absf x0) 0xFF800000#32 reduces_S4096x512_S512 (.inl rfl) rfl) shapeCasts_S512_S1x512)
      (broadcast S1x512 (Scalar.ofBits .f32 0x358637BD#32)))
    (broadcast S1x512 (Scalar.ofBits .f32 0x42FE0000#32))

/-- Column `q`'s step is the specification's step of that column of the block. -/
theorem steps_apply (x0 : FVec Ideal S4096x512 .f32) (q : Fin 512) :
    steps x0 (ix2 (0 : Fin 1) q) = Cert.Spec.scale fun e : Fin 4096 => x0 (ix2 e q) := by
  unfold steps Cert.Spec.scale
  rw [divf_apply, maximumf_apply, broadcast_apply, broadcast_apply, shapeCast_a_1a_apply, colMax_apply]
  rfl

/-- The block's arithmetic is the clamp of the rounded quotient by the column's step, times the step. -/
theorem pay_eq (x0 : Vec Ideal S4096x512 .f32) :
    k0_pay1 (F := Ideal) x0
      = truncf .bf16 (mulf (minimumf (broadcast S4096x512 (Scalar.ofBits .f32 0x42FE0000#32))
            (maximumf (broadcast S4096x512 (Scalar.ofBits .f32 0xC2FE0000#32))
              (roundeven (divf x0 (broadcastTo S4096x512 (steps x0) broadcasts_S1x512_S4096x512)))))
          (broadcastTo S4096x512 (steps x0) broadcasts_S1x512_S4096x512)) bitsLt_bf16_f32 := rfl

/-- THE BLOCK'S RESULT at row `p`, column `q`: the entry there, quantized with its column's step. -/
theorem pay_apply (x0 : Vec Ideal S4096x512 .f32) (p : Fin 4096) (q : Fin 512) :
    k0_pay1 (F := Ideal) x0 (ix2 p q)
      = Cert.Spec.fq (x0 (ix2 p q)) (Cert.Spec.scale fun e : Fin 4096 => x0 (ix2 e q)) := by
  rw [pay_eq]
  show min (Ideal.ofBits .f32 0x42FE0000#32) (max (Ideal.ofBits .f32 0xC2FE0000#32)
      (Ideal.liftRound Ideal.roundHalfEven (Ideal.div (x0 (ix2 p q))
        (broadcastTo S4096x512 (steps x0) broadcasts_S1x512_S4096x512 (ix2 p q)))))
      * broadcastTo S4096x512 (steps x0) broadcasts_S1x512_S4096x512 (ix2 p q) = _
  rw [broadcastTo_1b_ab_apply, steps_apply]
  rfl

/-! ## From the blocks to the array -/

-- the TensorCore's buffer contents when the region is entered
variable (V : (c : Dev nD) → (b : Ref sig .tc) → Buf (Elt Ideal) ((c : Thread nD τ).loc b))

theorem origin_eq : (![0, 0] : Fin 2 → Nat) = fun _ => 0 := funext fun a => by fin_cases a <;> rfl

/-- The printed index maps, decided once over the 8 grid points: at point `t` both windows sit on the one block of
    rows and the block of columns `t`. -/
theorem index_facts : ∀ t : Fin cfg0.N, win0_0.index t (0 : Fin 2) = 0 ∧ win0_0.index t (1 : Fin 2) = t.val
    ∧ win0_1.index t (0 : Fin 2) = 0 ∧ win0_1.index t (1 : Fin 2) = t.val :=
  (by decide +kernel : ∀ t : Fin grid0.N, _)

/-- WHAT POINT `t` WRITES BACK is block `t` of the column-quantized array. -/
theorem flushed_eq (c : Dev nD) (t : Fin cfg0.N) :
    (dat0 (F := Ideal) V c).flushed 1 t
      = ((cfg0.win 1).blk t).view.read (Elt Ideal) (fun i => Cert.Spec.wq (V c main_arg1) (i 0) (i 1) : S4096x4096.Idx → EReal) := by
  show (cfg0.win 1).cut (grid0.coords t) ((dat0 V c).after 1 t) = _
  rw [after0_1]
  unfold out0_1
  rw [View.canon_unit_zero origin_eq]
  simp only [View.ld_unit_zero (S := S4096x512) origin_eq]
  obtain ⟨e0, e1, e2, e3⟩ := index_facts t
  funext j
  obtain ⟨p, q, rfl⟩ : ∃ (p : Fin 4096) (q : Fin 512), j = ix2 p q := ⟨j 0, j 1, eq_ix2 j⟩
  have ht : t.val < 8 := lt_of_lt_of_eq t.isLt N_0
  -- the column of the array that column `q` of block `t` is
  have hc : t.val * 512 + q.val < 4096 := by have := q.isLt; omega
  -- the input block's entry (e, q) is the array's entry (e, t * 512 + q)
  have h0 : ∀ e : Fin 4096, ((cfg0.win 0).blk t).view.emb (ix2 e q) = ix2 e (⟨t.val * 512 + q.val, hc⟩ : Fin 4096) := by
    intro e
    funext a; apply Fin.ext
    match a with
    | ⟨0, _⟩ => show win0_0.index t (0 : Fin 2) * 4096 + 1 * e.val = e.val; omega
    | ⟨1, _⟩ => show win0_0.index t (1 : Fin 2) * 512 + 1 * q.val = t.val * 512 + q.val; omega
  -- and so is the output block's
  have h1 : ((cfg0.win 1).blk t).view.emb (ix2 p q) = ix2 p (⟨t.val * 512 + q.val, hc⟩ : Fin 4096) := by
    funext a; apply Fin.ext
    match a with
    | ⟨0, _⟩ => show win0_1.index t (0 : Fin 2) * 4096 + 1 * p.val = p.val; omega
    | ⟨1, _⟩ => show win0_1.index t (1 : Fin 2) * 512 + 1 * q.val = t.val * 512 + q.val; omega
  show k0_pay1 (F := Ideal) (iblk0 V c 0 t) (ix2 p q)
    = Cert.Spec.wq (V c main_arg1) ((((cfg0.win 1).blk t).view.emb (ix2 p q)) 0) ((((cfg0.win 1).blk t).view.emb (ix2 p q)) 1)
  refine (pay_apply (iblk0 V c 0 t) p q).trans ?_
  rw [h1]
  show Cert.Spec.fq (V c main_arg1 (((cfg0.win 0).blk t).view.emb (ix2 p q)))
      (Cert.Spec.scale fun e : Fin 4096 => V c main_arg1 (((cfg0.win 0).blk t).view.emb (ix2 e q)))
    = Cert.Spec.fq (V c main_arg1 (ix2 p (⟨t.val * 512 + q.val, hc⟩ : Fin 4096)))
      (Cert.Spec.scale fun e : Fin 4096 => V c main_arg1 (ix2 e (⟨t.val * 512 + q.val, hc⟩ : Fin 4096)))
  rw [h0 p, show (fun e : Fin 4096 => V c main_arg1 (((cfg0.win 0).blk t).view.emb (ix2 e q)))
      = fun e : Fin 4096 => V c main_arg1 (ix2 e (⟨t.val * 512 + q.val, hc⟩ : Fin 4096)) from funext fun e => congrArg _ (h0 e)]

/-- An index of the array is in point `t`'s block iff each coordinate is in the block's range on its axis. -/
theorem mem_blk (t : Fin cfg0.N) (i : S4096x4096.Idx) :
    i ∈ ((cfg0.win 1).blk t).view.set ↔ ∀ a : Fin 2, win0_1.index t a * S4096x512.size a ≤ (i a).val
      ∧ (i a).val < win0_1.index t a * S4096x512.size a + S4096x512.size a := by
  show i ∈ ((View.whole main_v0).slice (win0_1.rect t)).set ↔ _
  rw [View.set_slice_whole, Rect.mem_set_unit]
  exact Iff.rfl

/-- Every entry of the array is written back by some point: column `f` by point `f / 512`. -/
theorem covered (i : S4096x4096.Idx) :
    ∃ t : Fin cfg0.N, (cfg0.win 1).flush t = true ∧ i ∈ ((cfg0.win 1).blk t).view.set := by
  have hi0 : (i 0).val < 4096 := (i 0).isLt
  have hi1 : (i 1).val < 4096 := (i 1).isLt
  have hN : cfg0.N = 8 := N_0
  have hlt : (i 1).val / 512 < cfg0.N := by rw [hN]; omega
  obtain ⟨e0, e1, e2, e3⟩ := index_facts ⟨(i 1).val / 512, hlt⟩
  have e3' : win0_1.index ⟨(i 1).val / 512, hlt⟩ (1 : Fin 2) = (i 1).val / 512 := e3
  refine ⟨⟨(i 1).val / 512, hlt⟩, flush0_1 _, ?_⟩
  rw [mem_blk]
  intro a
  match a with
  | ⟨0, _⟩ =>
    show win0_1.index ⟨(i 1).val / 512, hlt⟩ (0 : Fin 2) * 4096 ≤ (i 0).val
      ∧ (i 0).val < win0_1.index ⟨(i 1).val / 512, hlt⟩ (0 : Fin 2) * 4096 + 4096
    omega
  | ⟨1, _⟩ =>
    show win0_1.index ⟨(i 1).val / 512, hlt⟩ (1 : Fin 2) * 512 ≤ (i 1).val
      ∧ (i 1).val < win0_1.index ⟨(i 1).val / 512, hlt⟩ (1 : Fin 2) * 512 + 512
    omega

/-- After the first region the quantized-weight array holds, at (d, f), the weight (d, f) of the array the region
    found in the weight argument's buffer, quantized with its column's step. -/
theorem final (c : Dev nD) :
    (dat0 (F := Ideal) V c).arrAt 1 cfg0.N
      = (fun i => Cert.Spec.wq (V c main_arg1) (i 0) (i 1) : S4096x4096.Idx → EReal) :=
  (dat0 V c).arrAt_eq_of_cover 1 _ (fun t _ => flushed_eq V c t) covered

end Cert.KernelIdeal.WeightQuant

end
-- ==== Proof.ActQuant.lean ====
import proofs.«169491_j28449863369033_1_alg».proof.Proof.Gen.KernelIdeal.Frame
import proofs.«169491_j28449863369033_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.ActQuant

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The block's arithmetic at one entry -/

/-- A vector of length `a` recast as a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `b` positions reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The largest absolute value along each row of a block, as the block's arithmetic takes it: the fold of `max`
    over the row's 4096 positions, from the float `-∞`. -/
theorem rowMax_apply (x0 : FVec Ideal S512x4096 .f32) (hacc : (0xFF800000#32 : BitVec 32) = 0xFF800000#32) (p : Fin 512) :
    multiReduction (F := Ideal) .maximumf [1] S512 (absf x0) 0xFF800000#32 reduces_S512x4096_S512 (.inl rfl) hacc (ix1 p)
      = (Finset.univ : Finset (Fin 4096)).fold max (Ideal.ofBits .f32 0xFF800000#32)
          (fun e => max (x0 (ix2 p e)) (-(x0 (ix2 p e)))) := by
  refine (Ideal.multiReduction_maximumf_single (absf x0) 0xFF800000#32 reduces_S512x4096_S512 (.inl rfl) hacc (ix1 p)).trans ?_
  show (Finset.univ : Finset (Fin 4096)).fold max (Ideal.ofBits .f32 0xFF800000#32) _ = _
  congr 1
  funext e
  show max (x0 (reduces_S512x4096_S512.lift (ix1 p) e)) (-(x0 (reduces_S512x4096_S512.lift (ix1 p) e))) = _
  have hl : reduces_S512x4096_S512.lift (ix1 p) e = ix2 p e := by
    funext c; apply Fin.ext
    match c with
    | ⟨0, _⟩ => rfl
    | ⟨1, _⟩ => rfl
  rw [hl]
  rfl

/-- The column of quantization steps of a block: each row's largest absolute value, kept at least the float nearest
    1e-6, over 127. -/
def steps (x0 : FVec Ideal S512x4096 .f32) : FVec Ideal S512x1 .f32 :=
  divf (maximumf (shapeCast S512x1 (multiReduction (F := Ideal) .maximumf [1] S512 (absf x0) 0xFF800000#32 reduces_S512x4096_S512 (.inl rfl) rfl) shapeCasts_S512_S512x1)
      (broadcast S512x1 (Scalar.ofBits .f32 0x358637BD#32)))
    (broadcast S512x1 (Scalar.ofBits .f32 0x42FE0000#32))

/-- Row `p`'s step is the specification's step of that row. -/
theorem steps_apply (x0 : FVec Ideal S512x4096 .f32) (p : Fin 512) :
    steps x0 (ix2 p (0 : Fin 1)) = Cert.Spec.scale fun e : Fin 4096 => x0 (ix2 p e) := by
  unfold steps Cert.Spec.scale
  rw [divf_apply, maximumf_apply, broadcast_apply, broadcast_apply, shapeCast_a_a1_apply, rowMax_apply]
  rfl

/-- The block's arithmetic is the clamp of the rounded quotient by the row's step, times the step. -/
theorem pay_eq (x0 : Vec Ideal S512x4096 .f32) :
    k1_pay1 (F := Ideal) x0
      = truncf .bf16 (mulf (minimumf (broadcast S512x4096 (Scalar.ofBits .f32 0x42FE0000#32))
            (maximumf (broadcast S512x4096 (Scalar.ofBits .f32 0xC2FE0000#32))
              (roundeven (divf x0 (broadcastTo S512x4096 (steps x0) broadcasts_S512x1_S512x4096)))))
          (broadcastTo S512x4096 (steps x0) broadcasts_S512x1_S512x4096)) bitsLt_bf16_f32 := by
  unfold k1_pay1 steps
  simp only [shapeCast_self]

/-- THE BLOCK'S RESULT at row `p`, position `q`: the entry there, quantized with its row's step. -/
theorem pay_apply (x0 : Vec Ideal S512x4096 .f32) (p : Fin 512) (q : Fin 4096) :
    k1_pay1 (F := Ideal) x0 (ix2 p q)
      = Cert.Spec.fq (x0 (ix2 p q)) (Cert.Spec.scale fun e : Fin 4096 => x0 (ix2 p e)) := by
  rw [pay_eq]
  show min (Ideal.ofBits .f32 0x42FE0000#32) (max (Ideal.ofBits .f32 0xC2FE0000#32)
      (Ideal.liftRound Ideal.roundHalfEven (Ideal.div (x0 (ix2 p q))
        (broadcastTo S512x4096 (steps x0) broadcasts_S512x1_S512x4096 (ix2 p q)))))
      * broadcastTo S512x4096 (steps x0) broadcasts_S512x1_S512x4096 (ix2 p q) = _
  rw [broadcastTo_a1_ab_apply, steps_apply]
  rfl

/-! ## From the blocks to the array -/

-- the TensorCore's buffer contents when the region is entered
variable (V : (c : Dev nD) → (b : Ref sig .tc) → Buf (Elt Ideal) ((c : Thread nD τ).loc b))

theorem origin_eq : (![0, 0] : Fin 2 → Nat) = fun _ => 0 := funext fun a => by fin_cases a <;> rfl

/-- The printed index maps, decided once over the 16 grid points: at point `t` both windows sit on the block of rows
    `t`, and the one block of columns. -/
theorem index_facts : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- WHAT POINT `t` WRITES BACK is block `t` of the row-quantized array. -/
theorem flushed_eq (c : Dev nD) (t : Fin cfg1.N) :
    (dat1 (F := Ideal) V c).flushed 1 t
      = ((cfg1.win 1).blk t).view.read (Elt Ideal) (fun i => Cert.Spec.aq2 (V c main_v1) (i 0) (i 1) : S8192x4096.Idx → EReal) := by
  show (cfg1.win 1).cut (grid1.coords t) ((dat1 V c).after 1 t) = _
  rw [after1_1]
  unfold out1_1
  rw [View.canon_unit_zero origin_eq]
  simp only [View.ld_unit_zero (S := S512x4096) origin_eq]
  obtain ⟨e0, e1, e2, e3⟩ := index_facts t
  funext j
  obtain ⟨p, q, rfl⟩ : ∃ (p : Fin 512) (q : Fin 4096), j = ix2 p q := ⟨j 0, j 1, eq_ix2 j⟩
  have ht : t.val < 16 := lt_of_lt_of_eq t.isLt N_1
  -- the row of the array that row `p` of block `t` is
  have hr : t.val * 512 + p.val < 8192 := by have := p.isLt; omega
  -- the input block's entry (p, e) is the array's entry (t * 512 + p, e)
  have h0 : ∀ e : Fin 4096, ((cfg1.win 0).blk t).view.emb (ix2 p e) = ix2 (⟨t.val * 512 + p.val, hr⟩ : Fin 8192) e := by
    intro e
    funext a; apply Fin.ext
    match a with
    | ⟨0, _⟩ => show win1_0.index t (0 : Fin 2) * 512 + 1 * p.val = t.val * 512 + p.val; omega
    | ⟨1, _⟩ => show win1_0.index t (1 : Fin 2) * 4096 + 1 * e.val = e.val; omega
  -- and so is the output block's
  have h1 : ((cfg1.win 1).blk t).view.emb (ix2 p q) = ix2 (⟨t.val * 512 + p.val, hr⟩ : Fin 8192) q := by
    funext a; apply Fin.ext
    match a with
    | ⟨0, _⟩ => show win1_1.index t (0 : Fin 2) * 512 + 1 * p.val = t.val * 512 + p.val; omega
    | ⟨1, _⟩ => show win1_1.index t (1 : Fin 2) * 4096 + 1 * q.val = q.val; omega
  show k1_pay1 (F := Ideal) (iblk1 V c 0 t) (ix2 p q)
    = Cert.Spec.aq2 (V c main_v1) ((((cfg1.win 1).blk t).view.emb (ix2 p q)) 0) ((((cfg1.win 1).blk t).view.emb (ix2 p q)) 1)
  refine (pay_apply (iblk1 V c 0 t) p q).trans ?_
  rw [h1]
  show Cert.Spec.fq (V c main_v1 (((cfg1.win 0).blk t).view.emb (ix2 p q)))
      (Cert.Spec.scale fun e : Fin 4096 => V c main_v1 (((cfg1.win 0).blk t).view.emb (ix2 p e)))
    = Cert.Spec.fq (V c main_v1 (ix2 (⟨t.val * 512 + p.val, hr⟩ : Fin 8192) q))
      (Cert.Spec.scale fun e : Fin 4096 => V c main_v1 (ix2 (⟨t.val * 512 + p.val, hr⟩ : Fin 8192) e))
  rw [h0 q, show (fun e : Fin 4096 => V c main_v1 (((cfg1.win 0).blk t).view.emb (ix2 p e)))
      = fun e : Fin 4096 => V c main_v1 (ix2 (⟨t.val * 512 + p.val, hr⟩ : Fin 8192) e) from funext fun e => congrArg _ (h0 e)]

/-- An index of the array is in point `t`'s block iff each coordinate is in the block's range on its axis. -/
theorem mem_blk (t : Fin cfg1.N) (i : S8192x4096.Idx) :
    i ∈ ((cfg1.win 1).blk t).view.set ↔ ∀ a : Fin 2, win1_1.index t a * S512x4096.size a ≤ (i a).val
      ∧ (i a).val < win1_1.index t a * S512x4096.size a + S512x4096.size a := by
  show i ∈ ((View.whole main_v2).slice (win1_1.rect t)).set ↔ _
  rw [View.set_slice_whole, Rect.mem_set_unit]
  exact Iff.rfl

/-- Every entry of the array is written back by some point: row `r` by point `r / 512`. -/
theorem covered (i : S8192x4096.Idx) :
    ∃ t : Fin cfg1.N, (cfg1.win 1).flush t = true ∧ i ∈ ((cfg1.win 1).blk t).view.set := by
  have hi0 : (i 0).val < 8192 := (i 0).isLt
  have hi1 : (i 1).val < 4096 := (i 1).isLt
  have hN : cfg1.N = 16 := N_1
  have hlt : (i 0).val / 512 < cfg1.N := by rw [hN]; omega
  obtain ⟨e0, e1, e2, e3⟩ := index_facts ⟨(i 0).val / 512, hlt⟩
  have e2' : win1_1.index ⟨(i 0).val / 512, hlt⟩ (0 : Fin 2) = (i 0).val / 512 := e2
  refine ⟨⟨(i 0).val / 512, hlt⟩, flush1_1 _, ?_⟩
  rw [mem_blk]
  intro a
  match a with
  | ⟨0, _⟩ =>
    show win1_1.index ⟨(i 0).val / 512, hlt⟩ (0 : Fin 2) * 512 ≤ (i 0).val
      ∧ (i 0).val < win1_1.index ⟨(i 0).val / 512, hlt⟩ (0 : Fin 2) * 512 + 512
    omega
  | ⟨1, _⟩ =>
    show win1_1.index ⟨(i 0).val / 512, hlt⟩ (1 : Fin 2) * 4096 ≤ (i 1).val
      ∧ (i 1).val < win1_1.index ⟨(i 0).val / 512, hlt⟩ (1 : Fin 2) * 4096 + 4096
    omega

/-- After the second region the quantized-activation array holds, at (r, d), the entry (r, d) of the flattened
    activations the region found, quantized with its row's step. -/
theorem final (c : Dev nD) :
    (dat1 (F := Ideal) V c).arrAt 1 cfg1.N
      = (fun i => Cert.Spec.aq2 (V c main_v1) (i 0) (i 1) : S8192x4096.Idx → EReal) :=
  (dat1 V c).arrAt_eq_of_cover 1 _ (fun t _ => flushed_eq V c t) covered

end Cert.KernelIdeal.ActQuant

end
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.Product.lean ====
import proofs.«169491_j28449863369033_1_alg».proof.Proof.Gen.KernelIdeal.Frame
import proofs.«169491_j28449863369033_1_alg».proof.Proof.Spec
import proofs.«169491_j28449863369033_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Product

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The zero offset pair, as the constant function. -/
theorem zero_offsets : (![0, 0] : Fin 2 → Nat) = fun _ => 0 := funext fun a => by fin_cases a <;> rfl

/-- One tile of the product: entry (p, q) of the body's result is the sum over the 4096 contracted positions of
    the left block's entry (p, d) times the right block's entry (d, q). The two reshapes are of a shape to itself,
    and the accumulator the product is added to is zero. -/
theorem tile_apply (a : Vec Ideal S512x4096 .bf16) (b : Vec Ideal S4096x1024 .bf16) (p : Fin 512) (q : Fin 1024) :
    k2_pay1 (F := Ideal) a b (ix2 p q) = ∑ d : Fin 4096, a (ix2 p d) * b (ix2 d q) := by
  unfold k2_pay1
  rw [shapeCast_self, shapeCast_self]
  exact Cert.LibDot.matmul_10_zero_apply dot_S512x4096_S4096x1024_S512x1024_1_0_0_1_n_n rfl rfl rfl rfl rfl rfl none a b p q

/-- The printed block-index maps over the 64 grid points: the left operand's row block is the output's row block and
    its column block is 0; the right operand's row block is 0 and its column block is the output's column block; the
    output's row block is at most 15 and its column block at most 3. -/
theorem block_indices : ∀ t : Fin cfg2.N,
    win2_0.index t (0 : Fin 2) = win2_2.index t (0 : Fin 2)
    ∧ win2_0.index t (1 : Fin 2) = 0
    ∧ win2_1.index t (0 : Fin 2) = 0
    ∧ win2_1.index t (1 : Fin 2) = win2_2.index t (1 : Fin 2)
    ∧ win2_2.index t (0 : Fin 2) ≤ 15
    ∧ win2_2.index t (1 : Fin 2) ≤ 3 :=
  (by decide +kernel : ∀ t : Fin grid2.N, _)

/-- Every (row block, column block) pair of the output is some grid point's. -/
theorem block_indices_onto : ∀ (q0 : Fin 16) (q1 : Fin 4), ∃ t : Fin cfg2.N, win2_2.index t = ![q0.val, q1.val] :=
  (by decide +kernel : ∀ (q0 : Fin 16) (q1 : Fin 4), ∃ t : Fin grid2.N, win2_2.index t = ![q0.val, q1.val])

-- the TensorCore's buffer contents when the region is entered
variable (V : (c : Dev nD) → (b : Ref sig .tc) → Buf (Elt Ideal) ((c : Thread nD τ).loc b))

/-- The left operand's block at a grid point: its entry (p, d) is the array's entry (r, d), where r is the output's
    row block times 512 plus p. -/
theorem left_block_apply (c : Dev nD) (t : Fin cfg2.N) (p : Fin 512) (d : Fin 4096) (r : Fin 8192)
    (hr : r.val = win2_2.index t (0 : Fin 2) * 512 + p.val) :
    (iblk2 (F := Ideal) V c 0 t : Vec Ideal S512x4096 .bf16) (ix2 p d)
      = (V c main_v2 : S8192x4096.Idx → EReal) (ix2 r d) := by
  obtain ⟨e0, e1, e2, e3, e4, e5⟩ := block_indices t
  unfold iblk2
  rw [View.read_apply]
  show V c main_v2 _ = V c main_v2 _
  congr 1
  funext a
  apply Fin.ext
  match a with
  | ⟨0, _⟩ => show win2_0.index t (0 : Fin 2) * 512 + 1 * p.val = r.val; omega
  | ⟨1, _⟩ => show win2_0.index t (1 : Fin 2) * 4096 + 1 * d.val = d.val; omega

/-- The right operand's block at a grid point: its entry (d, q) is the array's entry (d, f), where f is the output's
    column block times 1024 plus q. -/
theorem right_block_apply (c : Dev nD) (t : Fin cfg2.N) (d : Fin 4096) (q : Fin 1024) (f : Fin 4096)
    (hf : f.val = win2_2.index t (1 : Fin 2) * 1024 + q.val) :
    (iblk2 (F := Ideal) V c 1 t : Vec Ideal S4096x1024 .bf16) (ix2 d q)
      = (V c main_v0 : S4096x4096.Idx → EReal) (ix2 d f) := by
  obtain ⟨e0, e1, e2, e3, e4, e5⟩ := block_indices t
  unfold iblk2
  rw [View.read_apply]
  show V c main_v0 _ = V c main_v0 _
  congr 1
  funext a
  apply Fin.ext
  match a with
  | ⟨0, _⟩ => show win2_1.index t (0 : Fin 2) * 4096 + 1 * d.val = d.val; omega
  | ⟨1, _⟩ => show win2_1.index t (1 : Fin 2) * 1024 + 1 * q.val = f.val; omega

/-- The product of the two arrays as the region finds them: at (r, f) the sum over the contracted positions. -/
abbrev product (c : Dev nD) : S8192x4096.Idx → EReal :=
  fun i => Cert.Spec.out2 (V c main_v2) (V c main_v0) (i 0) (i 1)

/-- What grid point t writes back is the block of the product at the output's (row block, column block): the tile
    computed from the left operand's row block and the right operand's column block is the product's tile there. -/
theorem flushed_eq (c : Dev nD) (t : Fin cfg2.N) :
    (dat2 (F := Ideal) V c).flushed 2 t = ((cfg2.win 2).blk t).view.read (Elt Ideal) (product V c) := by
  show (cfg2.win 2).cut (grid2.coords t) ((dat2 V c).after 2 t) = _
  rw [after2_2]
  unfold out2_2
  rw [View.canon_unit_zero zero_offsets]
  simp only [View.ld_unit_zero (S := S512x4096) zero_offsets, View.ld_unit_zero (S := S4096x1024) zero_offsets]
  obtain ⟨e0, e1, e2, e3, e4, e5⟩ := block_indices t
  funext j
  obtain ⟨p, q, rfl⟩ : ∃ (p : Fin 512) (q : Fin 1024), j = ix2 p q := ⟨j 0, j 1, eq_ix2 j⟩
  show k2_pay1 (F := Ideal) (iblk2 V c 0 t) (iblk2 V c 1 t) (ix2 p q)
    = product V c (((cfg2.win 2).blk t).view.emb (ix2 p q))
  rw [tile_apply]
  have hp : p.val < 512 := p.isLt
  have hq : q.val < 1024 := q.isLt
  obtain ⟨r, hr⟩ : ∃ r : Fin 8192, r.val = win2_2.index t (0 : Fin 2) * 512 + p.val :=
    ⟨⟨win2_2.index t (0 : Fin 2) * 512 + p.val, by omega⟩, rfl⟩
  obtain ⟨f, hf⟩ : ∃ f : Fin 4096, f.val = win2_2.index t (1 : Fin 2) * 1024 + q.val :=
    ⟨⟨win2_2.index t (1 : Fin 2) * 1024 + q.val, by omega⟩, rfl⟩
  have hemb : ((cfg2.win 2).blk t).view.emb (ix2 p q) = (ix2 r f : S8192x4096.Idx) := by
    funext a
    apply Fin.ext
    match a with
    | ⟨0, _⟩ => show win2_2.index t (0 : Fin 2) * 512 + 1 * p.val = r.val; omega
    | ⟨1, _⟩ => show win2_2.index t (1 : Fin 2) * 1024 + 1 * q.val = f.val; omega
  rw [hemb]
  show _ = Cert.Spec.out2 (V c main_v2) (V c main_v0) r f
  unfold Cert.Spec.out2
  refine Finset.sum_congr rfl fun d _ => ?_
  rw [left_block_apply V c t p d r hr, right_block_apply V c t d q f hf]

/-- An index of the product array lies in grid point t's block iff each coordinate lies in the block's range. -/
theorem mem_block (t : Fin cfg2.N) (i : S8192x4096.Idx) :
    i ∈ ((cfg2.win 2).blk t).view.set ↔ ∀ a : Fin 2, win2_2.index t a * S512x1024.size a ≤ (i a).val
      ∧ (i a).val < win2_2.index t a * S512x1024.size a + S512x1024.size a := by
  show i ∈ ((View.whole main_v3).slice (win2_2.rect t)).set ↔ _
  rw [View.set_slice_whole, Rect.mem_set_unit]
  exact Iff.rfl

/-- The 16 × 4 output blocks tile the product array: index (r, f) lies in the block of the grid point whose row block
    is r / 512 and whose column block is f / 1024, and every grid point writes its block back. -/
theorem covered (i : S8192x4096.Idx) :
    ∃ t : Fin cfg2.N, (cfg2.win 2).flush t = true ∧ i ∈ ((cfg2.win 2).blk t).view.set := by
  have hi0 : (i 0).val < 8192 := (i 0).isLt
  have hi1 : (i 1).val < 4096 := (i 1).isLt
  obtain ⟨t, ht⟩ := block_indices_onto ⟨(i 0).val / 512, by omega⟩ ⟨(i 1).val / 1024, by omega⟩
  have q0 : win2_2.index t (0 : Fin 2) = (i 0).val / 512 := congrFun ht 0
  have q1 : win2_2.index t (1 : Fin 2) = (i 1).val / 1024 := congrFun ht 1
  refine ⟨t, flush2_2 t, ?_⟩
  rw [mem_block]
  intro a
  match a with
  | ⟨0, _⟩ =>
    show win2_2.index t (0 : Fin 2) * 512 ≤ (i 0).val ∧ (i 0).val < win2_2.index t (0 : Fin 2) * 512 + 512
    omega
  | ⟨1, _⟩ =>
    show win2_2.index t (1 : Fin 2) * 1024 ≤ (i 1).val ∧ (i 1).val < win2_2.index t (1 : Fin 2) * 1024 + 1024
    omega

/-- After the third region the product array holds, at (r, f), the sum over the 4096 contracted positions of the
    left array's entry (r, d) times the right array's entry (d, f), both as the region found them. -/
theorem final (c : Dev nD) :
    (dat2 (F := Ideal) V c).arrAt 2 cfg2.N
      = (fun i => Cert.Spec.out2 (V c main_v2) (V c main_v0) (i 0) (i 1) : S8192x4096.Idx → EReal) :=
  (dat2 (F := Ideal) V c).arrAt_eq_of_cover 2 (product V c) (fun t _ => flushed_eq V c t) covered

end Cert.KernelIdeal.Product

end
-- ==== Proof.KernelValue.lean ====
/-
  The idealized kernel's result as a function of its two arguments.

  Follow the buffers through the program. The first region leaves the column-quantized weights in its output array;
  the host flattens the activations' two leading axes; the second region leaves the row-quantized flattened
  activations; the third region reads both quantized arrays — the weights' array untouched since the first region —
  and leaves their rows-by-columns product; the host reads the product back at rank 3. Composed, that is the
  specification's result of the two arguments (the flattening absorbed by `Spec.out3_of_flat`).
-/
import proofs.«169491_j28449863369033_1_alg».proof.Proof.Gen.KernelIdeal.Frame
import proofs.«169491_j28449863369033_1_alg».proof.Proof.Spec
import proofs.«169491_j28449863369033_1_alg».proof.Proof.Flatten
import proofs.«169491_j28449863369033_1_alg».proof.Proof.WeightQuant
import proofs.«169491_j28449863369033_1_alg».proof.Proof.ActQuant
import proofs.«169491_j28449863369033_1_alg».proof.Proof.Product
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.KernelValue

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The result buffer holds the product array read at rank 3. -/
theorem result_reshape (c : Dev nD) :
    W5 m ρ c (Proc.devRef .tc main_v4)
      = shapeCast S4x2048x4096 (W4 m ρ c (Proc.devRef .tc main_v3) : S8192x4096.Idx → EReal) shapeCasts_S8192x4096_S4x2048x4096 := by
  show StableHlo.after hostOps3 (W4 m ρ c) (Proc.devRef .tc main_v4) = _
  after_results
  rfl

/-- The second region finds the activations flattened. -/
theorem flat_in (c : Dev nD) :
    V2 m ρ c main_v1
      = shapeCast S8192x4096 (m ((c : Thread nD τ).loc main_arg0) : S4x2048x4096.Idx → EReal) shapeCasts_S4x2048x4096_S8192x4096 := by
  show StableHlo.after hostOps1 (W1 m ρ c) (Proc.devRef .tc main_v1) = _
  after_results
  rw [W1_of_ne m ρ c main_arg0 (by decide)]
  rfl

/-- The third region finds the quantized weights as the first region left them: neither the flattening nor the second
    region writes that array. -/
theorem weights_in (c : Dev nD) :
    V3 m ρ c main_v0 = (fun j => Cert.Spec.wq (m ((c : Thread nD τ).loc main_arg1)) (j 0) (j 1) : S4096x4096.Idx → EReal) := by
  have h1 : V3 m ρ c main_v0 = W2 m ρ c (Proc.devRef .tc main_v0) := W3_of_ne m ρ c main_v0 (by decide)
  have h2 : W2 m ρ c (Proc.devRef .tc main_v0) = W1 m ρ c (Proc.devRef .tc main_v0) := by
    show StableHlo.after hostOps1 (W1 m ρ c) (Proc.devRef .tc main_v0) = _
    after_results
  rw [h1, h2]
  exact (W1_arr m ρ c 1).trans (Cert.KernelIdeal.WeightQuant.final (V0 m ρ) c)

/-- The third region finds the quantized flattened activations. -/
theorem acts_in (c : Dev nD) :
    V3 m ρ c main_v2
      = (fun j => Cert.Spec.aq2 (shapeCast S8192x4096 (m ((c : Thread nD τ).loc main_arg0) : S4x2048x4096.Idx → EReal) shapeCasts_S4x2048x4096_S8192x4096) (j 0) (j 1) : S8192x4096.Idx → EReal) := by
  have h := (W3_arr m ρ c 1).trans (Cert.KernelIdeal.ActQuant.final (V2 m ρ) c)
  rw [flat_in m ρ c] at h
  exact h

/-- THE KERNEL'S RESULT: the specification's function of the two arguments. -/
theorem result (c : Dev nD) :
    W5 m ρ c (Proc.devRef .tc main_v4)
      = Cert.Spec.out3 (m ((c : Thread nD τ).loc main_arg0)) (m ((c : Thread nD τ).loc main_arg1)) := by
  rw [result_reshape m ρ c]
  have hp : (W4 m ρ c (Proc.devRef .tc main_v3) : S8192x4096.Idx → EReal)
      = fun i => Cert.Spec.out2 (V3 m ρ c main_v2) (V3 m ρ c main_v0) (i 0) (i 1) :=
    (W4_arr m ρ c 2).trans (Cert.KernelIdeal.Product.final (V3 m ρ) c)
  rw [hp, acts_in m ρ c, weights_in m ρ c]
  exact Cert.Spec.out3_of_flat shapeCasts_S4x2048x4096_S8192x4096 shapeCasts_S8192x4096_S4x2048x4096 _ _

end Cert.KernelIdeal.KernelValue

end
-- ==== Proof.RefValue.lean ====
import proofs.«169491_j28449863369033_1_alg».proof.Proof.Gen.ReferenceIdeal.Read
import proofs.«169491_j28449863369033_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

/-- The row-reduction's shape fact in the form that names the inserted index. -/
theorem red_act : S4x2048x4096.Reduces [2] S4x2048 := by decide

/-- The column-reduction's shape fact in the form that names the inserted index. -/
theorem red_wt : S4096x4096.Reduces [0] S4096 := by decide

/-- Inserting `e` on the last axis of (b, s) gives (b, s, e). -/
theorem lift_act (b : Fin 4) (s : Fin 2048) (e : Fin 4096) : red_act.lift (ix2 b s) e = ix3 b s e :=
  funext fun c => Fin.ext (by
    match c with
    | ⟨0, _⟩ => rfl
    | ⟨1, _⟩ => rfl
    | ⟨2, _⟩ => rfl)

/-- Inserting `e` on the first axis of (f) gives (e, f). -/
theorem lift_wt (f : Fin 4096) (e : Fin 4096) : red_wt.lift (ix1 f) e = ix2 e f :=
  funext fun c => Fin.ext (by
    match c with
    | ⟨0, _⟩ => rfl
    | ⟨1, _⟩ => rfl)

/-- The largest absolute value along a row of the activations, as a fold of `max` from `-∞`. -/
theorem rowmax_at (x0 : (⟨S4x2048x4096, .f32⟩ : BufTy).Contents (Elt Ideal)) (b : Fin 4) (s : Fin 2048) :
    val_main_v1 (F := Ideal) x0 (ix2 b s)
      = (Finset.univ : Finset (Fin 4096)).fold max (Ideal.ofBits .f32 0xFF800000#32)
          (fun e => max (x0 (ix3 b s e)) (-(x0 (ix3 b s e)))) := by
  unfold val_main_v1
  generalize hy : val_main_v0 (F := Ideal) x0 = y
  refine (Host.reduce_eq_fold_single _ y _ reducesTo_S4x2048x4096_S4x2048_d2 red_act h_S_ (ix2 b s)).trans ?_
  subst hy
  have hf : (val_main_v0 (F := Ideal) x0 ∘ red_act.lift (ix2 b s))
      = fun e : Fin 4096 => max (x0 (ix3 b s e)) (-(x0 (ix3 b s e))) :=
    funext fun e => congrArg (fun i => max (x0 i) (-(x0 i))) (lift_act b s e)
  rw [hf]; rfl

/-- The three index maps of the activations' side at explicit coordinates. -/
theorem idx_v2_at (b : Fin 4) (s : Fin 2048) : idx_main_v2 (ix3 b s (0 : Fin 1)) = ix2 b s :=
  funext fun a => Fin.ext (by
    match a with
    | ⟨0, _⟩ => rfl
    | ⟨1, _⟩ => rfl)

theorem idx_v7_at (b : Fin 4) (s : Fin 2048) (d : Fin 4096) : idx_main_v7 (ix3 b s d) = ix3 b s (0 : Fin 1) :=
  funext fun a => Fin.ext (by
    match a with
    | ⟨0, _⟩ => rfl
    | ⟨1, _⟩ => rfl
    | ⟨2, _⟩ => rfl)

theorem idx_v11_at (b : Fin 4) (s : Fin 2048) (d : Fin 4096) : idx_main_v11 (ix3 b s d) = ix3 b s (0 : Fin 1) :=
  funext fun a => Fin.ext (by
    match a with
    | ⟨0, _⟩ => rfl
    | ⟨1, _⟩ => rfl
    | ⟨2, _⟩ => rfl)

/-- The step of row (b, s) of the activations is the specification's step of that row. -/
theorem scale_act (x0 : (⟨S4x2048x4096, .f32⟩ : BufTy).Contents (Elt Ideal)) (b : Fin 4) (s : Fin 2048) :
    val_main_v6 (F := Ideal) x0 (ix3 b s (0 : Fin 1)) = Cert.Spec.scale (fun e : Fin 4096 => x0 (ix3 b s e)) := by
  rw [val_main_v6_apply, val_main_v4_apply, val_main_v2_apply, val_main_v3_apply, val_main_cst_0_apply, val_main_v5_apply,
    val_main_cst_1_apply, idx_v2_at, rowmax_at]
  rfl

/-- The reference's quantized activation at (b, s, d) is the specification's. -/
theorem act_eq (x0 : (⟨S4x2048x4096, .f32⟩ : BufTy).Contents (Elt Ideal)) (b : Fin 4) (s : Fin 2048) (d : Fin 4096) :
    val_main_v12 (F := Ideal) x0 (ix3 b s d) = Cert.Spec.aq3 x0 b s d := by
  rw [val_main_v12_apply, val_main_v10_apply, val_main_call1_v4_apply, val_main_call1_v3_apply, val_main_cst_3_apply,
    val_main_call1_v2_apply, val_main_call1_v1_apply, val_main_call1_v0_apply, val_main_cst_2_apply, val_main_v9_apply,
    val_main_v8_apply, val_main_v7_apply, val_main_v11_apply, idx_v7_at, idx_v11_at, scale_act]
  rfl

/-- The largest absolute value down a column of the weights, as a fold of `max` from `-∞`. -/
theorem colmax_at (x1 : (⟨S4096x4096, .f32⟩ : BufTy).Contents (Elt Ideal)) (f : Fin 4096) :
    val_main_v14 (F := Ideal) x1 (ix1 f)
      = (Finset.univ : Finset (Fin 4096)).fold max (Ideal.ofBits .f32 0xFF800000#32)
          (fun e => max (x1 (ix2 e f)) (-(x1 (ix2 e f)))) := by
  unfold val_main_v14
  generalize hy : val_main_v13 (F := Ideal) x1 = y
  refine (Host.reduce_eq_fold_single _ y _ reducesTo_S4096x4096_S4096_d0 red_wt h_S_ (ix1 f)).trans ?_
  subst hy
  have hf : (val_main_v13 (F := Ideal) x1 ∘ red_wt.lift (ix1 f))
      = fun e : Fin 4096 => max (x1 (ix2 e f)) (-(x1 (ix2 e f))) :=
    funext fun e => congrArg (fun i => max (x1 i) (-(x1 i))) (lift_wt f e)
  rw [hf]; rfl

/-- The three index maps of the weights' side at explicit coordinates. -/
theorem idx_v15_at (f : Fin 4096) : idx_main_v15 (ix2 (0 : Fin 1) f) = ix1 f :=
  funext fun a => Fin.ext (by
    match a with
    | ⟨0, _⟩ => rfl)

theorem idx_v20_at (d f : Fin 4096) : idx_main_v20 (ix2 d f) = ix2 (0 : Fin 1) f :=
  funext fun a => Fin.ext (by
    match a with
    | ⟨0, _⟩ => rfl
    | ⟨1, _⟩ => rfl)

theorem idx_v24_at (d f : Fin 4096) : idx_main_v24 (ix2 d f) = ix2 (0 : Fin 1) f :=
  funext fun a => Fin.ext (by
    match a with
    | ⟨0, _⟩ => rfl
    | ⟨1, _⟩ => rfl)

/-- The step of column `f` of the weights is the specification's step of that column. -/
theorem scale_wt (x1 : (⟨S4096x4096, .f32⟩ : BufTy).Contents (Elt Ideal)) (f : Fin 4096) :
    val_main_v19 (F := Ideal) x1 (ix2 (0 : Fin 1) f) = Cert.Spec.scale (fun e : Fin 4096 => x1 (ix2 e f)) := by
  rw [val_main_v19_apply, val_main_v17_apply, val_main_v15_apply, val_main_v16_apply, val_main_cst_5_apply, val_main_v18_apply,
    val_main_cst_6_apply, idx_v15_at, colmax_at]
  rfl

/-- The reference's quantized weight at (d, f) is the specification's. -/
theorem wt_eq (x1 : (⟨S4096x4096, .f32⟩ : BufTy).Contents (Elt Ideal)) (d f : Fin 4096) :
    val_main_v25 (F := Ideal) x1 (ix2 d f) = Cert.Spec.wq x1 d f := by
  rw [val_main_v25_apply, val_main_v23_apply, val_main_call3_v4_apply, val_main_call3_v3_apply, val_main_cst_8_apply,
    val_main_call3_v2_apply, val_main_call3_v1_apply, val_main_call3_v0_apply, val_main_cst_7_apply, val_main_v22_apply,
    val_main_v21_apply, val_main_v20_apply, val_main_v24_apply, idx_v20_at, idx_v24_at, scale_wt]
  rfl

/-- The contraction reads the activations at (b, s, d) and the weights at (d, f). -/
theorem lidx_at (b : Fin 4) (s : Fin 2048) (f d : Fin 4096) : lidx_main_v26 (ix3 b s f) d = ix3 b s d :=
  funext fun a => Fin.ext (by
    match a with
    | ⟨0, _⟩ => rfl
    | ⟨1, _⟩ => rfl
    | ⟨2, _⟩ => rfl)

theorem ridx_at (b : Fin 4) (s : Fin 2048) (f d : Fin 4096) : ridx_main_v26 (ix3 b s f) d = ix2 d f :=
  funext fun a => Fin.ext (by
    match a with
    | ⟨0, _⟩ => rfl
    | ⟨1, _⟩ => rfl)

/-- The reference's last stage, the contraction of the two quantized arrays, is the specification's result. -/
theorem result_eq (x0 : (⟨S4x2048x4096, .f32⟩ : BufTy).Contents (Elt Ideal)) (x1 : (⟨S4096x4096, .f32⟩ : BufTy).Contents (Elt Ideal)) :
    val_main_v26 (F := Ideal) x0 x1 = Cert.Spec.out3 x0 x1 := by
  funext i
  obtain ⟨b, s, f, rfl⟩ : ∃ (b : Fin 4) (s : Fin 2048) (f : Fin 4096), i = ix3 b s f := ⟨i 0, i 1, i 2, eq_ix3 i⟩
  rw [val_main_v26_apply]
  unfold Cert.Spec.out3
  refine Finset.sum_congr rfl fun d _ => ?_
  rw [lidx_at, ridx_at, act_eq, wt_eq]

end Cert.ReferenceIdeal.RefValue

end
-- ==== Proof.lean ====
/-
  The certificate: the kernel's three fused-quantization regions against the host reference.

  Both idealized programs compute one function of the two arguments over the extended reals (`Cert.Spec.out3`): the
  weights fake-quantized to the int8 grid column by column, the activations row by row along the last axis, and the
  4096-term contraction of the two. The kernel does it in three regions with a flattening of the activations'
  leading axes before and a read-back at rank 3 after (`KernelValue.result`); the reference in one host program
  (`RefValue.result_eq`). The narrowing of the quantized arrays to bf16 is the identity at the ideal values, and the
  two sums run over the same 4096 products, so no finiteness of the inputs is used.
  The word-level kernel and the idealized kernel run to the end with their arguments unchanged (the frames), the
  reference likewise (its run with the result forgotten); the idealization rewrote nothing.
-/
import proofs.«169491_j28449863369033_1_alg».proof.Defs
import proofs.«169491_j28449863369033_1_alg».proof.Proof.Gen.Kernel
import proofs.«169491_j28449863369033_1_alg».proof.Proof.Gen.Kernel.Skeleton
import proofs.«169491_j28449863369033_1_alg».proof.Proof.Gen.Kernel.Launch
import proofs.«169491_j28449863369033_1_alg».proof.Proof.Gen.Kernel.Points
import proofs.«169491_j28449863369033_1_alg».proof.Proof.Gen.Kernel.Frame
import proofs.«169491_j28449863369033_1_alg».proof.Proof.Gen.KernelIdeal
import proofs.«169491_j28449863369033_1_alg».proof.Proof.Gen.KernelIdeal.Skeleton
import proofs.«169491_j28449863369033_1_alg».proof.Proof.Gen.KernelIdeal.Launch
import proofs.«169491_j28449863369033_1_alg».proof.Proof.Gen.KernelIdeal.Points
import proofs.«169491_j28449863369033_1_alg».proof.Proof.Gen.KernelIdeal.Frame
import proofs.«169491_j28449863369033_1_alg».proof.Proof.Gen.ReferenceIdeal
import proofs.«169491_j28449863369033_1_alg».proof.Proof.Gen.Pre_finite_inputs
import proofs.«169491_j28449863369033_1_alg».proof.Proof.Gen.ReferenceIdeal.Run
import proofs.«169491_j28449863369033_1_alg».proof.Proof.Gen.ReferenceIdeal.Read
import proofs.«169491_j28449863369033_1_alg».proof.Proof.RunResult
import proofs.«169491_j28449863369033_1_alg».proof.Proof.KernelValue
import proofs.«169491_j28449863369033_1_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_kernel [Cert.Kernel.Facts] [Cert.Pre_finite_inputs.Facts] : Cert.frame_Kernel :=
  fun m ρ _ => Cert.Kernel.Gen.frame m ρ

/-- The idealized kernel runs and keeps its arguments. -/
theorem frame_kernel_ideal [Cert.KernelIdeal.Facts] [Cert.Pre_finite_inputs.Facts] : Cert.frame_KernelIdeal :=
  fun m ρ _ => Cert.KernelIdeal.Gen.frame m ρ

/-- The reference runs and keeps its arguments: its run, the result forgotten. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on the arguments both idealized programs end with the specification's result of those
    arguments in their result buffers, element by element the same extended reals. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Spec.out3 (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.KernelValue.result m ρ c), (h c).2⟩)
      (Cert.KernelIdeal.RunResult.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v26_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
